-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : IVec S_ 32) (main_arg2 : IVec S_ 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  main_v3
-- ==== Kernel.lean ====
abbrev S2000000x64 : Shape := ⟨2, ![2000000, 64]⟩
abbrev S_ : Shape := ⟨0, ![]⟩
abbrev S128x64 : Shape := ⟨2, ![128, 64]⟩
abbrev S40000x64 : Shape := ⟨2, ![40000, 64]⟩
abbrev S64x64 : Shape := ⟨2, ![64, 64]⟩
abbrev S625x64x64 : Shape := ⟨3, ![625, 64, 64]⟩
abbrev S64 : Shape := ⟨1, ![64]⟩

abbrev nBuf : Space → Nat
  | .hbm => 10
  | .vmem => 4
  | .smem => 0
  | _ => 0

abbrev bufTy : (tb : Table) → Fin (tcTables nBuf tb) → BufTy
  | .hbm, ⟨0, _⟩ => ⟨S2000000x64, .f32⟩
  | .hbm, ⟨1, _⟩ => ⟨S_, .i32⟩
  | .hbm, ⟨2, _⟩ => ⟨S_, .i32⟩
  | .hbm, ⟨3, _⟩ => ⟨S128x64, .f32⟩
  | .hbm, ⟨4, _⟩ => ⟨S_, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S64, .f32⟩
  | .hbm, ⟨9, _⟩ => ⟨S64, .f32⟩
  | .local _ .vmem, ⟨0, _⟩ => ⟨S40000x64, .f32⟩
  | .local _ .vmem, ⟨1, _⟩ => ⟨S40000x64, .f32⟩
  | .local _ .vmem, ⟨2, _⟩ => ⟨S64x64, .f32⟩
  | .local _ .vmem, ⟨3, _⟩ => ⟨S64x64, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S40000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S64x64_S64x64_0_0 : ∀ a, (![0, 0] : Fin 2 → Nat) a + S64x64.size a ≤ S64x64.size a
  h_S64x64 : 0 < S64x64.numel
  inb_S40000x64_S40000x64_0_0 : ∀ a, (![0, 0] : Fin 2 → Nat) a + S40000x64.size a ≤ S40000x64.size a
  h_S40000x64 : 0 < S40000x64.numel
  shapeCasts_S64x64_S64x64 : S64x64.ShapeCasts S64x64
  shapeCasts_S40000x64_S625x64x64 : S40000x64.ShapeCasts S625x64x64
  reduces_S625x64x64_S64x64 : S625x64x64.Reduces [0] S64x64
  reducesTo_S128x64_S64_d0 : S128x64.ReducesTo [0] S64
  h_S_ : 0 < S_.numel
  bcast_S_S64 : S_.BroadcastsInDim S64 (![] : Fin 0 → Fin S64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40000x64.size a ≤ S2000000x64.size a
  hwx0_0 : ∀ i : grid0.Coords, EltTy.bits .f32 = 32 ∨ (Rect.block (s := S2000000x64) S40000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S128x64.size a
  hwx0_1 : ∀ i : grid0.Coords, EltTy.bits .f32 = 32 ∨ (Rect.block (s := S128x64) S64x64.size (cc0_transform_1 i) (hinb0_1 i)).WholeWords (EltTy.packing .f32)

variable [Facts₀]

abbrev win0_0 : Pipeline.Window sig grid0 :=
  Pipeline.Window.ofSpec (Memref.whole main_arg0) S40000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x64 : Shape := ⟨2, ![2000000, 64]⟩
abbrev S_ : Shape := ⟨0, ![]⟩
abbrev S64 : Shape := ⟨1, ![64]⟩

abbrev nBuf : Space → Nat
  | .hbm => 9
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S2000000x64_S64_d0 : S2000000x64.ReducesTo [0] S64
  h_S_ : 0 < S_.numel
  bcast_S_S64 : S_.BroadcastsInDim S64 (![] : Fin 0 → Fin S64.rank)

variable [Facts₀]

class Facts : Prop extends Facts₀ where

variable [Facts]
-- ==== Proof.Pieces.lean ====
/-
  What one run of the pooling body leaves in the 64 x 64 accumulator block, as a value of the block of 40,000 input
  rows x it was given (and, away from the first point of a half, of the accumulator xo it found).

  The body's last store writes the whole accumulator block with acc + (the block's rows folded 625-to-1), where acc
  is what the body reads from the accumulator just before. At the first point of a half (j = 0) the body has just
  stored the zero block there, so acc is the zero block; at every other point acc is what the point before left.
  Both statements hold for any float values.
-/
import proofs.«178490_g90984587198527_feedfinal_549_2_alg».proof.Defs
import proofs.«178490_g90984587198527_feedfinal_549_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PoolValue

open Cert.KernelIdeal Cert.KernelIdeal.Gen

variable {F : FTy → Type} [FloatOps F]

theorem hz : (![0, 0] : Fin 2 → Nat) = fun _ => 0 := funext fun a => by fin_cases a <;> rfl

/-- Away from the first point of a half: the accumulator found, plus the folded block. -/
theorem out_B (c : Dev nD) (i : grid0.Coords) (a2 : Memref sig .tc .vmem S40000x64 .f32) (h2 : a2.IsWhole)
    (a3 : Memref sig .tc .vmem S64x64 .f32) (h3 : a3.IsWhole) (hc : ¬cond0_0 i) (x : Vec F S40000x64 .f32) (xo : Vec F S64x64 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero hz]
  simp only [View.readAt_eq_ld, h2.read_unread, h3.read_unread, View.ld_unit_zero (S := S40000x64) hz,
    View.ld_unit_zero (S := S64x64) hz]

/-- At the first point of a half: the zero block just stored, plus the folded block. -/
theorem out_A (c : Dev nD) (i : grid0.Coords) (a2 : Memref sig .tc .vmem S40000x64 .f32) (h2 : a2.IsWhole)
    (a3 : Memref sig .tc .vmem S64x64 .f32) (h3 : a3.IsWhole) (hc : cond0_0 i) (x : Vec F S40000x64 .f32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S64x64) hz, View.readCov_unit_zero (S := S64x64) _ hz]
  simp only [View.readAt_eq_ld, h2.read_unread, View.ld_unit_zero (S := S40000x64) hz]

end Cert.KernelIdeal.PoolValue

end
-- ==== Proof.Payload.lean ====
/-
  The pooling body's arithmetic read at one entry, over the extended reals.

  The body views its block of 40,000 rows as 625 groups of 64 rows, adds the groups row by row, and adds the result
  to the accumulator: entry (r, ch) of what it stores is acc (r, ch) + the sum over g < 625 of the block's entry
  (64 g + r, ch). The zero block it stores at the first point of a half is 0 at every entry.
-/
import proofs.«178490_g90984587198527_feedfinal_549_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.PoolValue

open Cert.KernelIdeal Cert.KernelIdeal.Gen

/-- Row 64 g + r of a block of 40,000 rows: row r of its g-th group of 64. -/
def blkRow (g : Fin 625) (r : Fin 64) : Fin 40000 :=
  ⟨g.val * 64 + r.val, by have := g.isLt; have := r.isLt; omega⟩

/-- The stored accumulator at (r, ch): the accumulator read there plus the block's column ch summed over the rows
    congruent to r modulo 64. -/
theorem pay2_apply (x : Vec Ideal S40000x64 .f32) (acc : Vec Ideal S64x64 .f32) (r ch : Fin 64) :
    k0_pay2 (F := Ideal) x acc (ix2 r ch) = acc (ix2 r ch) + ∑ g : Fin 625, x (ix2 (blkRow g r) ch) := by
  unfold k0_pay2
  show (shapeCast S64x64 acc shapeCasts_S64x64_S64x64) (ix2 r ch)
      + (multiReduction (F := Ideal) .add [0] S64x64 (shapeCast S625x64x64 x shapeCasts_S40000x64_S625x64x64) 0x00000000#32
          reduces_S625x64x64_S64x64 (.inl rfl) rfl) (ix2 r ch) = _
  rw [shapeCast_self]
  refine congrArg (acc (ix2 r ch) + ·) ?_
  refine (Ideal.multiReduction_add_single _ _ reduces_S625x64x64_S64x64 _ _ (ix2 r ch)).trans ?_
  refine Finset.sum_congr rfl fun g _ => ?_
  refine shapeCast_apply x _ _ _ ?_
  rw [Shape.rowMajor_val_two, Shape.rowMajor_val_three]
  rfl

/-- The zero block at any entry. -/
theorem pay1_apply (j : S64x64.Idx) : k0_pay1 (F := Ideal) j = 0 := by
  unfold k0_pay1
  show Ideal.ofBits .f32 0x00000000#32 = 0
  exact Ideal.ofBits_zero_f32

end Cert.KernelIdeal.PoolValue

end
-- ==== Proof.Sums.lean ====
/-
  Finite sums of a sequence of length 2,000,000 regrouped.

  The pooling kernel adds up the rows of a 2,000,000-row array in another order than one pass over the rows.
  Row n is written n = ((i * 25 + j) * 625 + g) * 64 + r with i < 2, j < 25, g < 625, r < 64: the kernel first adds
  over g (one block of 40,000 rows folded into 64 accumulator rows), then over j (the 25 blocks of one half, added
  one after the other into the accumulator, which is reset at j = 0), and keeps the 2 * 64 partial rows q = 64 * i + r
  apart; adding those over q afterwards gives the sum over all n. Nothing but commutativity and associativity of
  addition is used, so the statements are over any commutative additive monoid.
-/
import Mathlib.Algebra.BigOperators.Fin
import Mathlib.Algebra.BigOperators.Intervals
import Mathlib.Tactic.Ring

namespace Cert.PoolSums

variable {M : Type*} [AddCommMonoid M]

/-- A sum over the first A * B naturals is the sum over A consecutive stretches of length B. -/
theorem sum_range_mul (A B : ℕ) (f : ℕ → M) :
    ∑ n ∈ Finset.range (A * B), f n = ∑ a ∈ Finset.range A, ∑ b ∈ Finset.range B, f (B * a + b) := by
  induction A with
  | zero => simp
  | succ A ih =>
    rw [Nat.succ_mul, Finset.sum_range_add, ih, Finset.sum_range_succ, Nat.mul_comm A B]

/-- The regrouping, for any extents: the partial sums indexed by q = R * i + r (over j and g), added over q, are the
    sum over every n = ((J * i + j) * G + g) * R + r. -/
theorem regroup_gen (I J G R : ℕ) (hR : 0 < R) (f : ℕ → M) :
    ∑ q ∈ Finset.range (I * R), ∑ j ∈ Finset.range J, ∑ g ∈ Finset.range G,
        f ((J * (q / R) + j) * (G * R) + g * R + q % R)
      = ∑ n ∈ Finset.range (I * (J * (G * R))), f n := by
  rw [sum_range_mul I (J * (G * R)), sum_range_mul I R]
  refine Finset.sum_congr rfl fun i _ => ?_
  rw [sum_range_mul J (G * R), Finset.sum_comm]
  refine Finset.sum_congr rfl fun j _ => ?_
  rw [sum_range_mul G R, Finset.sum_comm]
  refine Finset.sum_congr rfl fun g _ => ?_
  refine Finset.sum_congr rfl fun r hr => ?_
  have hr' : r < R := Finset.mem_range.mp hr
  have h1 : (R * i + r) / R = i := by
    rw [Nat.mul_add_div hR, Nat.div_eq_of_lt hr', Nat.add_zero]
  have h2 : (R * i + r) % R = r := by
    rw [Nat.mul_add_mod, Nat.mod_eq_of_lt hr']
  rw [h1, h2]
  congr 1
  ring

/-- The regrouping at the kernel's extents: 2 halves, 25 blocks a half, 625 groups of 64 rows a block. -/
theorem regroup (f : ℕ → M) :
    ∑ q ∈ Finset.range 128, ∑ j ∈ Finset.range 25, ∑ g ∈ Finset.range 625,
        f ((25 * (q / 64) + j) * 40000 + g * 64 + q % 64)
      = ∑ n ∈ Finset.range 2000000, f n :=
  regroup_gen 2 25 625 64 (by decide) f

/-- A running total that is restarted every J steps: step n adds b n, to zero where J divides n and to the total
    so far elsewhere. -/
def accSeq (J : ℕ) (b : ℕ → M) : ℕ → M
  | 0 => 0 + b 0
  | n + 1 => if (n + 1) % J = 0 then 0 + b (n + 1) else accSeq J b n + b (n + 1)

/-- After step J * i + k (k < J) the running total is the sum of b over the steps J * i, …, J * i + k. -/
theorem accSeq_eq (J : ℕ) (b : ℕ → M) (i k : ℕ) (hk : k < J) :
    accSeq J b (J * i + k) = ∑ j ∈ Finset.range (k + 1), b (J * i + j) := by
  induction k with
  | zero =>
    rw [Finset.sum_range_one, Nat.add_zero]
    cases h : J * i with
    | zero => rw [accSeq, zero_add]
    | succ n =>
      have hm : (n + 1) % J = 0 := by rw [← h]; exact Nat.mul_mod_right J i
      rw [accSeq, if_pos hm, zero_add]
  | succ k ih =>
    have hm : ¬ (J * i + k + 1) % J = 0 := by
      rw [Nat.add_assoc, Nat.mul_add_mod, Nat.mod_eq_of_lt hk]
      exact Nat.succ_ne_zero k
    rw [← Nat.add_assoc, accSeq, if_neg hm, ih (Nat.lt_of_succ_lt hk), Finset.sum_range_succ _ (k + 1), Nat.add_assoc]

end Cert.PoolSums
-- ==== Proof.Accum.lean ====
/-
  What the accumulator block holds after each grid point, over the extended reals.

  Grid point t (0 ≤ t < 50, t = 25 i + j) is given rows 40000 t, …, 40000 t + 39999 of the argument array: its
  block index is t itself. Entry (r, ch) of the accumulator therefore grows, at point t, by the sum over g < 625 of
  the array's entry (40000 t + 64 g + r, ch), and it is restarted from zero at the points t divisible by 25. So after
  point t it holds the running total of those contributions since the last restart, by induction on t.
-/
import proofs.«178490_g90984587198527_feedfinal_549_2_alg».proof.Proof.Pieces
import proofs.«178490_g90984587198527_feedfinal_549_2_alg».proof.Proof.Payload
import proofs.«178490_g90984587198527_feedfinal_549_2_alg».proof.Proof.Sums

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

section blocks

variable {F : FTy → Type} [FloatOps F]
variable (m : (ℓ : Loc nD τ sig) → Buf (Elt F) ℓ)

/-- The argument array as the region finds it. -/
abbrev xarr (c : Dev nD) : Vec F S2000000x64 .f32 := V m c main_arg0
/-- The block of it that grid point t is given. -/
abbrev xblk (c : Dev nD) (t : Fin cfg0.N) : Vec F S40000x64 .f32 := iblk m c 0 t

/-- The input's block index at point t is (t, 0). -/
theorem idx_in : ∀ t : Fin cfg0.N, win0_0.index t (0 : Fin 2) = t.val ∧ win0_0.index t (1 : Fin 2) = 0 :=
  (by decide +kernel : ∀ t : Fin grid0.N, _)

/-- Row `row` of point t's block is row 40000 t + row of the array. -/
def arrRow (t : Fin cfg0.N) (row : Fin 40000) : Fin 2000000 :=
  ⟨t.val * 40000 + row.val, by
    have := lt_of_lt_of_eq t.isLt (show cfg0.N = 50 from N_0); have := row.isLt; omega⟩

/-- A block's entry is the array's entry at the block's offset. -/
theorem xblk_apply (c : Dev nD) (t : Fin cfg0.N) (row : Fin 40000) (ch : Fin 64) :
    xblk m c t (ix2 row ch) = xarr m c (ix2 (arrRow t row) ch) := by
  obtain ⟨e0, e1⟩ := idx_in t
  show iblk m c 0 t (ix2 row ch) = V m c main_arg0 (ix2 (arrRow t row) ch)
  unfold iblk
  rw [View.read_apply]
  show V m c main_arg0 (((cfg0.win 0).blk t).view.emb (ix2 row ch)) = V m c main_arg0 (ix2 (arrRow t row) ch)
  refine congrArg (V m c main_arg0) (funext fun a => Fin.ext ?_)
  match a with
  | ⟨0, _⟩ =>
    show win0_0.index t (0 : Fin 2) * 40000 + 1 * row.val = t.val * 40000 + row.val
    rw [e0]; omega
  | ⟨1, _⟩ =>
    show win0_0.index t (1 : Fin 2) * 64 + 1 * ch.val = ch.val
    rw [e1]; omega

end blocks

section invariant

variable (m : (ℓ : Loc nD τ sig) → Buf (Elt Ideal) ℓ)

/-- Column ch of a 2,000,000-row array as a sequence over row numbers (zero past the last row, where it is never
    read). -/
def colAt (X : Vec Ideal S2000000x64 .f32) (ch : Fin 64) (n : ℕ) : EReal :=
  if h : n < 2000000 then X (ix2 ⟨n, h⟩ ch) else 0

/-- What block t adds to accumulator entry (r, ch): column ch over the rows 40000 t + 64 g + r, g < 625. -/
def blockFold (X : Vec Ideal S2000000x64 .f32) (r ch : Fin 64) (t : ℕ) : EReal :=
  ∑ g ∈ Finset.range 625, colAt X ch (t * 40000 + g * 64 + r.val)

/-- The body's sum over a block's groups is that contribution. -/
theorem blockFold_eq (c : Dev nD) (t : Fin cfg0.N) (r ch : Fin 64) :
    ∑ g : Fin 625, xblk m c t (ix2 (blkRow g r) ch) = blockFold (xarr m c) r ch t.val := by
  have hN : t.val < 50 := lt_of_lt_of_eq t.isLt (show cfg0.N = 50 from N_0)
  unfold blockFold
  rw [Finset.sum_range]
  refine Finset.sum_congr rfl fun g _ => ?_
  have hlt : t.val * 40000 + g.val * 64 + r.val < 2000000 := by
    have := g.isLt; have := r.isLt; omega
  rw [xblk_apply]
  unfold colAt
  rw [dif_pos hlt]
  refine congrArg (fun a => xarr m c (ix2 a ch)) (Fin.ext ?_)
  show t.val * 40000 + (g.val * 64 + r.val) = t.val * 40000 + g.val * 64 + r.val
  omega

/-- After point n the accumulator's entry (r, ch) is the running total, restarted every 25 points, of the blocks'
    contributions. -/
theorem outsAt_apply (c : Dev nD) (r ch : Fin 64) : ∀ (n : ℕ) (h : n < cfg0.N),
    outsAt0 m c n h (ix2 r ch) = PoolSums.accSeq 25 (blockFold (xarr m c) r ch) n
  | 0, h => by
    have e : outsAt0 m c 0 h = k0_pay2 (xblk m c ⟨0, h⟩) (k0_pay1 (F := Ideal)) :=
      (outsAt0_A m c ⟨0, h⟩ rfl).trans
        (out_A (F := Ideal) c (grid0.coords ⟨0, h⟩) (ms0_0 ⟨0, h⟩) (hs0_0 ⟨0, h⟩) (ms0_1 ⟨0, h⟩) (hs0_1 ⟨0, h⟩)
          ((hcond0_0 ⟨0, h⟩).mpr rfl) (iblk m c 0 ⟨0, h⟩))
    rw [e, pay2_apply, pay1_apply, blockFold_eq]
    rfl
  | n + 1, h => by
    by_cases h0 : (n + 1) % 25 = 0
    · have e : outsAt0 m c (n + 1) h = k0_pay2 (xblk m c ⟨n + 1, h⟩) (k0_pay1 (F := Ideal)) :=
        (outsAt0_A m c ⟨n + 1, h⟩ h0).trans
          (out_A (F := Ideal) c (grid0.coords ⟨n + 1, h⟩) (ms0_0 ⟨n + 1, h⟩) (hs0_0 ⟨n + 1, h⟩) (ms0_1 ⟨n + 1, h⟩)
            (hs0_1 ⟨n + 1, h⟩) ((hcond0_0 ⟨n + 1, h⟩).mpr h0) (iblk m c 0 ⟨n + 1, h⟩))
      rw [e, pay2_apply, pay1_apply, blockFold_eq, PoolSums.accSeq, if_pos h0]
    · have e : outsAt0 m c (n + 1) h
          = k0_pay2 (xblk m c ⟨n + 1, h⟩) (outsAt0 m c n (Nat.lt_of_succ_lt h)) :=
        (outsAt0_B m c ⟨n + 1, h⟩ h0).trans
          (out_B (F := Ideal) c (grid0.coords ⟨n + 1, h⟩) (ms0_0 ⟨n + 1, h⟩) (hs0_0 ⟨n + 1, h⟩) (ms0_1 ⟨n + 1, h⟩)
            (hs0_1 ⟨n + 1, h⟩) (fun hh => h0 ((hcond0_0 ⟨n + 1, h⟩).mp hh)) (iblk m c 0 ⟨n + 1, h⟩)
            (outsAt0 m c n (Nat.lt_of_succ_lt h)))
      rw [e, pay2_apply, outsAt_apply c r ch n (Nat.lt_of_succ_lt h), blockFold_eq, PoolSums.accSeq, if_neg h0]

end invariant

end Cert.KernelIdeal.PoolValue

end
-- ==== Proof.Final.lean ====
/-
  The pooling kernel's run read as values, over the extended reals.

  The output array has 128 rows: row q = 64 i + r is accumulator row r of half i. The accumulator block is written
  back after the last point of each half (t = 25 i + 24), when it holds the total over the half's 25 blocks; the two
  write-backs tile the array. So the array ends holding, at (q, ch), the sum over j < 25 and g < 625 of the argument's
  entry ((25 (q / 64) + j) 40000 + 64 g + q mod 64, ch). The host operations after the region add its 128 rows and
  divide by the product of the two integer arguments converted to a float.
-/
import proofs.«178490_g90984587198527_feedfinal_549_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable (m : (ℓ : Loc nD τ sig) → Buf (Elt Ideal) ℓ) (ρ : Dev nD → PrngReg)

/-- Entry (q, ch) of the partial sums: half q / 64, accumulator row q mod 64, summed over the half's blocks and each
    block's groups. -/
def partialAt (X : Vec Ideal S2000000x64 .f32) (q : Fin 128) (ch : Fin 64) : EReal :=
  ∑ j ∈ Finset.range 25, ∑ g ∈ Finset.range 625,
    colAt X ch ((25 * (q.val / 64) + j) * 40000 + g * 64 + q.val % 64)

/-- The 128 x 64 array of partial sums. -/
def partials (X : Vec Ideal S2000000x64 .f32) : Vec Ideal S128x64 .f32 := fun i => partialAt X (i 0) (i 1)

/-- Row 64 i + r of the partial sums is the total of the contributions of blocks 25 i, …, 25 i + 24 to accumulator
    row r. -/
theorem partialAt_eq (X : Vec Ideal S2000000x64 .f32) (i : ℕ) (r ch : Fin 64) (q : Fin 128) (hq : q.val = i * 64 + r.val) :
    partialAt X q ch = ∑ j ∈ Finset.range 25, blockFold X r ch (25 * i + j) := by
  have h1 : q.val % 64 = r.val := by have := r.isLt; omega
  have h2 : q.val / 64 = i := by have := r.isLt; omega
  unfold partialAt blockFold
  rw [h1, h2]

/-- The output's block index at point t is (t / 25, 0). -/
theorem idx_out : ∀ t : Fin cfg0.N, win0_1.index t (0 : Fin 2) = t.val / 25 ∧ win0_1.index t (1 : Fin 2) = 0 :=
  (by decide +kernel : ∀ t : Fin grid0.N, _)

/-- What a write-back writes is its block of the partial sums. -/
theorem flushed_eq (c : Dev nD) (t : Fin cfg0.N) (hf : (cfg0.win 1).flush t = true) :
    (dats m 0 c).flushed 1 t = ((cfg0.win 1).blk t).view.read (Elt Ideal) (partials (xarr m c)) := by
  have hN : t.val < 50 := lt_of_lt_of_eq t.isLt (show cfg0.N = 50 from N_0)
  have h24 : t.val % 25 = 24 := (flush0_1 t).mp hf
  obtain ⟨e0, e1⟩ := idx_out t
  show (cfg0.win 1).cut (grid0.coords t) ((dats m 0 c).after 1 t) = _
  rw [after0_1]
  funext y
  obtain ⟨r, ch, rfl⟩ : ∃ (r : Fin 64) (ch : Fin 64), y = ix2 r ch := ⟨y 0, y 1, eq_ix2 y⟩
  show outsAt0 m c t.val t.isLt (ix2 r ch) = partials (xarr m c) (((cfg0.win 1).blk t).view.emb (ix2 r ch))
  have ht : t.val = 25 * (t.val / 25) + 24 := by omega
  refine (outsAt_apply m c r ch t.val t.isLt).trans ?_
  refine ((congrArg (PoolSums.accSeq 25 (blockFold (xarr m c) r ch)) ht).trans
    (PoolSums.accSeq_eq 25 _ (t.val / 25) 24 (by decide))).trans ?_
  have hq0 : ((((cfg0.win 1).blk t).view.emb (ix2 r ch)) 0).val = t.val / 25 * 64 + r.val := by
    show win0_1.index t (0 : Fin 2) * 64 + 1 * r.val = t.val / 25 * 64 + r.val
    rw [e0]; omega
  have hq1 : (((cfg0.win 1).blk t).view.emb (ix2 r ch)) 1 = ch := Fin.ext (by
    show win0_1.index t (1 : Fin 2) * 64 + 1 * ch.val = ch.val
    rw [e1]; omega)
  show _ = partialAt (xarr m c) ((((cfg0.win 1).blk t).view.emb (ix2 r ch)) 0)
    ((((cfg0.win 1).blk t).view.emb (ix2 r ch)) 1)
  rw [hq1]
  exact (partialAt_eq (xarr m c) (t.val / 25) r ch _ hq0).symm

/-- An index of the output array is in point t's block iff each coordinate is in the block's range on its axis. -/
theorem mem_blk (t : Fin cfg0.N) (i : S128x64.Idx) :
    i ∈ ((cfg0.win 1).blk t).view.set ↔ ∀ a : Fin 2, win0_1.index t a * S64x64.size a ≤ (i a).val
      ∧ (i a).val < win0_1.index t a * S64x64.size a + S64x64.size a := by
  show i ∈ ((View.whole main_v0).slice (win0_1.rect t)).set ↔ _
  rw [View.set_slice_whole, Rect.mem_set_unit]
  exact Iff.rfl

/-- Every row of the output array is written back at the last point of its half. -/
theorem covered (i : S128x64.Idx) :
    ∃ t : Fin cfg0.N, (cfg0.win 1).flush t = true ∧ i ∈ ((cfg0.win 1).blk t).view.set := by
  have hi0 : (i 0).val < 128 := (i 0).isLt
  have hi1 : (i 1).val < 64 := (i 1).isLt
  have hlt : 25 * ((i 0).val / 64) + 24 < cfg0.N := by rw [show cfg0.N = 50 from N_0]; omega
  refine ⟨⟨25 * ((i 0).val / 64) + 24, hlt⟩, (flush0_1 _).mpr (by show (25 * ((i 0).val / 64) + 24) % 25 = 24; omega), ?_⟩
  obtain ⟨e0, e1⟩ := idx_out ⟨25 * ((i 0).val / 64) + 24, hlt⟩
  rw [mem_blk]
  intro a
  match a with
  | ⟨0, _⟩ =>
    show win0_1.index ⟨25 * ((i 0).val / 64) + 24, hlt⟩ (0 : Fin 2) * 64 ≤ (i 0).val
      ∧ (i 0).val < win0_1.index ⟨25 * ((i 0).val / 64) + 24, hlt⟩ (0 : Fin 2) * 64 + 64
    rw [e0]
    show (25 * ((i 0).val / 64) + 24) / 25 * 64 ≤ (i 0).val ∧ (i 0).val < (25 * ((i 0).val / 64) + 24) / 25 * 64 + 64
    omega
  | ⟨1, _⟩ =>
    show win0_1.index ⟨25 * ((i 0).val / 64) + 24, hlt⟩ (1 : Fin 2) * 64 ≤ (i 1).val
      ∧ (i 1).val < win0_1.index ⟨25 * ((i 0).val / 64) + 24, hlt⟩ (1 : Fin 2) * 64 + 64
    rw [e1]; omega

/-- The output array after the region: the partial sums of the argument array. -/
theorem final_v0 (c : Dev nD) : (dats m 0 c).arrAt 1 cfg0.N = partials (xarr m c) :=
  (dats m 0 c).arrAt_eq_of_cover 1 (partials (xarr m c)) (flushed_eq m c) covered

/-- The result after the host operations that follow the region: the partial sums added over their 128 rows (from
    the zero), divided by the product of the two integer arguments, converted and repeated along the 64 channels. -/
theorem tail_v5 (c : Dev nD) :
    Pipeline.afterTail₀ cfgs (dats m) 0 (V0 m) [hostOps1] c main_v5
      = Host.divf (F := Ideal) (Host.reduceAdd (F := Ideal) (partials (m ((c.tc : Thread nD τ).loc main_arg0))) (constant (F := Ideal) S_ .f32 0x00000000#32)
            reducesTo_S128x64_S64_d0 h_S_)
          (broadcastInDim S64 ![] bcast_S_S64
            (sitofp (F := Ideal) .f32 (muli (m ((c.tc : Thread nD τ).loc main_arg1)) (m ((c.tc : Thread nD τ).loc main_arg2))))) := by
  have e0 : Pipeline.withArrays (cfgs 0).spec c (V0 m c) (fun w => (dats m 0 c).arrAt w (cfgs 0).N)
      (Proc.devRef .tc main_v0) = partials (m ((c.tc : Thread nD τ).loc main_arg0)) :=
    (Pipeline.withArrays_arr spec0 launch0.win.arr_inj c _ _ 1).trans (final_v0 m c)
  have e1 : Pipeline.withArrays (cfgs 0).spec c (V0 m c) (fun w => (dats m 0 c).arrAt w (cfgs 0).N)
      (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  have e2 : Pipeline.withArrays (cfgs 0).spec c (V0 m c) (fun w => (dats m 0 c).arrAt w (cfgs 0).N)
      (Proc.devRef .tc main_arg2) = m ((c.tc : Thread nD τ).loc main_arg2) :=
    (Pipeline.withArrays_of_ne _ c (V0 m c) _ main_arg2
      (by exact (by decide : ∀ w, Pipeline.arrRef spec0 w ≠ main_arg2))).trans (V_main_arg2 m c)
  unfold Pipeline.afterTail₀
  show StableHlo.after hostOps1 _ (Proc.devRef .tc main_v5) = _
  after_results
  rw [e0, e1, e2]

/-- The kernel's run, read: every weakly fair execution ends with the result at that value and the three arguments
    as they were. -/
theorem run : θ_run defs (onTc (τ := τ) (main (F := Ideal))) ⟨m, fun _ => 0, ρ⟩ fun r => ∀ c : Dev nD,
      r.2.mem ((c.tc : Thread nD τ).loc main_v5)
        = Host.divf (F := Ideal) (Host.reduceAdd (F := Ideal) (partials (m ((c.tc : Thread nD τ).loc main_arg0))) (constant (F := Ideal) S_ .f32 0x00000000#32)
              reducesTo_S128x64_S64_d0 h_S_)
            (broadcastInDim S64 ![] bcast_S_S64
              (sitofp (F := Ideal) .f32 (muli (m ((c.tc : Thread nD τ).loc main_arg1)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_v5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.PoolValue

end
-- ==== Proof.Bridge.lean ====
/-
  The two programs' sums are one function of the argument array, over the extended reals.

  The kernel's host tail adds the 128 rows of partial sums; the reference adds the 2,000,000 rows of the argument.
  Channel by channel both are the zero plus a finite sum of the same entries: row n of the argument is counted once,
  in the partial sum of row 64 (n / 1000000) + n mod 64, at block (n / 40000) mod 25 and group (n mod 40000) / 64.
  Addition of extended reals is commutative and associative at the infinities too, so the regrouping needs no
  finiteness of the entries.
-/
import proofs.«178490_g90984587198527_feedfinal_549_2_alg».proof.Proof.Final
import proofs.«178490_g90984587198527_feedfinal_549_2_alg».proof.Proof.Gen.ReferenceIdeal.Read
import Idealize.ShloMosaic.PureOps.Ideal.Laws

noncomputable section

open Idealize.ShloMosaic Idealize.ShloMosaic.TcCoe Idealize.SL.Sem Idealize.ShloMosaic.ValueIdx

namespace Cert.KernelIdeal.PoolValue

open Cert.KernelIdeal

/-- The host's sum over the rows of a 128-row array, at channel ch: the initial value plus the column's 128 entries. -/
theorem reduce128_apply (P : FVec Ideal S128x64 .f32) (init : FVec Ideal S_ .f32) (h1 : S128x64.ReducesTo [0] S64)
    (hs : 0 < S_.numel) (ch : Fin 64) :
    Host.reduceAdd (F := Ideal) (φ := .f32) P init h1 hs (ix1 ch) = init (Shape.Idx.first hs) + ∑ k : Fin 128, P (ix2 k ch) := by
  simp only [Host.reduceAdd, Ideal.hostReduceAdd_def]
  rw [Ideal.hostReduceAdd_single h1 (by decide)]
  refine congrArg (_ + ·) (Finset.sum_congr rfl fun k _ => ?_)
  exact congrArg P (funext fun a => Fin.ext (by match a with | ⟨0, _⟩ => rfl | ⟨1, _⟩ => rfl))

/-- The same over the rows of the 2,000,000-row array. -/
theorem reduce2000000_apply (X : FVec Ideal S2000000x64 .f32) (init : FVec Ideal S_ .f32) (h2 : S2000000x64.ReducesTo [0] S64)
    (hs : 0 < S_.numel) (ch : Fin 64) :
    Host.reduceAdd (F := Ideal) (φ := .f32) X init h2 hs (ix1 ch) = init (Shape.Idx.first hs) + ∑ n : Fin 2000000, X (ix2 n ch) := by
  simp only [Host.reduceAdd, Ideal.hostReduceAdd_def]
  rw [Ideal.hostReduceAdd_single h2 (by decide)]
  refine congrArg (_ + ·) (Finset.sum_congr rfl fun k _ => ?_)
  exact congrArg X (funext fun a => Fin.ext (by match a with | ⟨0, _⟩ => rfl | ⟨1, _⟩ => rfl))

/-- A column of the partial sums adds up to the column of the argument array. -/
theorem sum_partials (X : Vec Ideal S2000000x64 .f32) (ch : Fin 64) :
    ∑ k : Fin 128, partials X (ix2 k ch) = ∑ n : Fin 2000000, X (ix2 n ch) := by
  have h1 : ∑ k : Fin 128, partials X (ix2 k ch)
      = ∑ q ∈ Finset.range 128, ∑ j ∈ Finset.range 25, ∑ g ∈ Finset.range 625,
          colAt X ch ((25 * (q / 64) + j) * 40000 + g * 64 + q % 64) :=
    (Finset.sum_range (fun q => ∑ j ∈ Finset.range 25, ∑ g ∈ Finset.range 625,
      colAt X ch ((25 * (q / 64) + j) * 40000 + g * 64 + q % 64))).symm
  rw [h1, PoolSums.regroup, Finset.sum_range]
  refine Finset.sum_congr rfl fun n _ => ?_
  unfold colAt
  rw [dif_pos n.isLt]

/-- So the sum of the partial sums' rows is the sum of the argument's rows, as arrays over the 64 channels. -/
theorem reduce_partials (X : FVec Ideal S2000000x64 .f32) (init : FVec Ideal S_ .f32) (h1 : S128x64.ReducesTo [0] S64)
    (h2 : S2000000x64.ReducesTo [0] S64) (hs hs' : 0 < S_.numel) :
    Host.reduceAdd (F := Ideal) (φ := .f32) (partials X) init h1 hs = Host.reduceAdd (F := Ideal) (φ := .f32) X init h2 hs' := by
  funext i
  obtain ⟨ch, rfl⟩ : ∃ ch : Fin 64, i = ix1 ch := ⟨i 0, eq_ix1 i⟩
  rw [reduce128_apply, reduce2000000_apply, sum_partials]

end Cert.KernelIdeal.PoolValue

end
-- ==== Proof.lean ====
/-
  Sparse global average pooling: the sum over the 2,000,000 rows of a 2,000,000 x 64 array, divided by h * w.

  The kernel streams the array in 50 blocks of 40,000 rows over a 2 x 25 grid. Each block is folded 625-to-1 into a
  64 x 64 accumulator, which is restarted at the first block of each half of the grid and written back after the
  last, giving 128 rows of partial sums; the host then adds the 128 rows and divides by the product of the two
  integer arguments converted to a float. The reference adds the 2,000,000 rows in one reduce and divides by the same
  quotient. Over the extended reals both numerators are the zero plus the sum of the same 2,000,000 entries of each
  channel, grouped differently (row n = ((25 i + j) 625 + g) 64 + r is counted in partial row 64 i + r), and addition
  there is commutative and associative at the infinities too: the two results agree at every input, and the
  precondition is not used for the values.

  The kernel's frames are the generated ones, the reference's frame is its generated run with the result dropped, and
  the idealization rewrote nothing. For the values: what one body run leaves in the accumulator (Pieces), the body's
  arithmetic at an entry (Payload), the accumulator after each grid point by induction on the point (Accum), the
  output array after the region and the host tail (Final), the regrouping of the sums (Sums, Bridge).
-/
import proofs.«178490_g90984587198527_feedfinal_549_2_alg».proof.Defs
import proofs.«178490_g90984587198527_feedfinal_549_2_alg».proof.Proof.Gen.Kernel
import proofs.«178490_g90984587198527_feedfinal_549_2_alg».proof.Proof.Gen.Kernel.Skeleton
import proofs.«178490_g90984587198527_feedfinal_549_2_alg».proof.Proof.Gen.Kernel.Launch
import proofs.«178490_g90984587198527_feedfinal_549_2_alg».proof.Proof.Gen.Kernel.Points
import proofs.«178490_g90984587198527_feedfinal_549_2_alg».proof.Proof.Gen.Kernel.Frame
import proofs.«178490_g90984587198527_feedfinal_549_2_alg».proof.Proof.Gen.KernelIdeal
import proofs.«178490_g90984587198527_feedfinal_549_2_alg».proof.Proof.Gen.KernelIdeal.Skeleton
import proofs.«178490_g90984587198527_feedfinal_549_2_alg».proof.Proof.Gen.KernelIdeal.Launch
import proofs.«178490_g90984587198527_feedfinal_549_2_alg».proof.Proof.Gen.KernelIdeal.Points
import proofs.«178490_g90984587198527_feedfinal_549_2_alg».proof.Proof.Gen.KernelIdeal.Frame
import proofs.«178490_g90984587198527_feedfinal_549_2_alg».proof.Proof.Gen.ReferenceIdeal
import proofs.«178490_g90984587198527_feedfinal_549_2_alg».proof.Proof.Gen.ReferenceIdeal.Run
import proofs.«178490_g90984587198527_feedfinal_549_2_alg».proof.Proof.Gen.ReferenceIdeal.Read
import proofs.«178490_g90984587198527_feedfinal_549_2_alg».proof.Proof.Gen.Pre_finite_inputs
import proofs.«178490_g90984587198527_feedfinal_549_2_alg».proof.Proof.Final
import proofs.«178490_g90984587198527_feedfinal_549_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs, and its arguments end unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end at (the sum of the argument's rows) / (h * w): the kernel's numerator is the sum of its 128
    partial rows, which is the sum of all 2,000,000 rows regrouped. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun s => Host.divf s _) (Cert.KernelIdeal.PoolValue.reduce_partials _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
